-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x64 : Shape := ⟨3, ![32, 1024, 64]⟩
abbrev S32x1024x1024 : Shape := ⟨3, ![32, 1024, 1024]⟩
abbrev S64x64 : Shape := ⟨2, ![64, 64]⟩
abbrev S64 : Shape := ⟨1, ![64]⟩
abbrev S_ : Shape := ⟨0, ![]⟩

class Facts : Prop where
  bcast_S_S32x1024x64 : S_.BroadcastsInDim S32x1024x64 (![] : Fin 0 → Fin S32x1024x64.rank)
  reducesTo_S32x1024x64_S_d0_1_2 : S32x1024x64.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64 .f32) (main_arg6 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S32x1024x64 .f32) (main_arg1 : FVec F S32x1024x1024 .f32) (main_arg2 : FVec F S64x64 .f32) (main_arg3 : FVec F S64x64 .f32) (main_arg4 : FVec F S64x64 .f32) (main_arg5 : FVec F S64 .f32) (main_arg6 : FVec F S64x64 .f32) : IVec S_ 1 :=
  let main_v0 : FVec F S32x1024x64 .f32 := Host.absf main_arg0
  let main_cst : FVec F S_ .f32 := constant S_ .f32 0x7F800000#32
  let main_v1 : FVec F S32x1024x64 .f32 := broadcastInDim S32x1024x64 ![] bcast_S_S32x1024x64 main_cst
  let main_v2 : IVec S32x1024x64 1 := cmpf .olt main_v0 main_v1
  let main_c : IVec S_ 1 := constantI S_ 1 1#1
  let main_v3 : IVec S_ 1 := (fun x v => Host.reduce IntOp.andi x v reducesTo_S32x1024x64_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S32x1024x64 : Shape := ⟨3, ![32, 1024, 64]⟩
abbrev S32x1024x1024 : Shape := ⟨3, ![32, 1024, 1024]⟩
abbrev S64x64 : Shape := ⟨2, ![64, 64]⟩
abbrev S64 : Shape := ⟨1, ![64]⟩
abbrev S1x1024x64 : Shape := ⟨3, ![1, 1024, 64]⟩
abbrev S1024x64 : Shape := ⟨2, ![1024, 64]⟩
abbrev S1x64 : Shape := ⟨2, ![1, 64]⟩
abbrev S64x1024 : Shape := ⟨2, ![64, 1024]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S32x1024x64, .f32⟩
  | .hbm, ⟨1, _⟩ => ⟨S32x1024x1024, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S32x1024x64, .f32⟩
  | .local _ .vmem, ⟨0, _⟩ => ⟨S1x1024x64, .f32⟩
  | .local _ .vmem, ⟨1, _⟩ => ⟨S1x1024x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S1x1024x64, .f32⟩
  | .local _ .vmem, ⟨8, _⟩ => ⟨S1x1024x64, .f32⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  reduces_S64x64_S64 : S64x64.Reduces [0] S64
  shapeCasts_S64_S1x64 : S64.ShapeCasts S1x64
  broadcasts_S1x64_S1024x64 : S1x64.Broadcasts S1024x64
  transposes_S1024x64_p1_0_S64x1024 : S1024x64.Transposes [1, 0] S64x1024
  iota_S1024x1024_d0_w32 : S1024x1024.Iotas .tc 32 [0]
  iota_S1024x1024_d1_w32 : S1024x1024.Iotas .tc 32 [1]
  shapeCasts_S1024x64_S1x1024x64 : S1024x64.ShapeCasts S1x1024x64
  dot_S1024x64_S64x64_S1024x64_1_0_0_1_n_n_wf : DotDims.WF S1024x64 S64x64 S1024x64 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x1024x64.size a
  hwx0_0 : ∀ i : grid0.Coords, EltTy.bits .f32 = 32 ∨ (Rect.block (s := S32x1024x64) S1x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S32x1024x64.size a
  hwx0_6 : ∀ i : grid0.Coords, EltTy.bits .f32 = 32 ∨ (Rect.block (s := S32x1024x64) S1x1024x64.size (cc0_transform_6 i) (hinb0_6 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x1024x64 : Shape := ⟨3, ![32, 1024, 64]⟩
abbrev S32x1024x1024 : Shape := ⟨3, ![32, 1024, 1024]⟩
abbrev S64x64 : Shape := ⟨2, ![64, 64]⟩
abbrev S64 : Shape := ⟨1, ![64]⟩
abbrev S_ : Shape := ⟨0, ![]⟩
abbrev S1x1x64 : Shape := ⟨3, ![1, 1, 64]⟩
abbrev S1024x1024 : Shape := ⟨2, ![1024, 1024]⟩
abbrev S1x1024x1024 : Shape := ⟨3, ![1, 1024, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S32x1024x1024, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S32x1024x64, .f32⟩
  | .hbm, ⟨8, _⟩ => ⟨S_, .f32⟩
  | .hbm, ⟨9, _⟩ => ⟨S64, .f32⟩
  | .hbm, ⟨10, _⟩ => ⟨S1x1x64, .f32⟩
  | .hbm, ⟨11, _⟩ => ⟨S32x1024x64, .f32⟩
  | .hbm, ⟨12, _⟩ => ⟨S32x1024x64, .f32⟩
  | .hbm, ⟨13, _⟩ => ⟨S32x1024x1024, .f32⟩
  | .hbm, ⟨14, _⟩ => ⟨S1024x1024, .i32⟩
  | .hbm, ⟨15, _⟩ => ⟨S1024x1024, .i32⟩
  | .hbm, ⟨16, _⟩ => ⟨S_, .i32⟩
  | .hbm, ⟨17, _⟩ => ⟨S1024x1024, .i32⟩
  | .hbm, ⟨18, _⟩ => ⟨S1024x1024, .i32⟩
  | .hbm, ⟨19, _⟩ => ⟨S1024x1024, .i1⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1x1024x1024, .f32⟩
  | .hbm, ⟨25, _⟩ => ⟨S32x1024x1024, .f32⟩
  | .hbm, ⟨26, _⟩ => ⟨S32x1024x1024, .f32⟩
  | .hbm, ⟨27, _⟩ => ⟨S_, .f32⟩
  | .hbm, ⟨28, _⟩ => ⟨S_, .f32⟩
  | .hbm, ⟨29, _⟩ => ⟨S32x1024x1024, .f32⟩
  | .hbm, ⟨30, _⟩ => ⟨S32x1024x1024, .i1⟩
  | .hbm, ⟨31, _⟩ => ⟨S_, .f32⟩
  | .hbm, ⟨32, _⟩ => ⟨S32x1024x1024, .f32⟩
  | .hbm, ⟨33, _⟩ => ⟨S32x1024x1024, .f32⟩
  | .hbm, ⟨34, _⟩ => ⟨S32x1024x1024, .f32⟩
  | .hbm, ⟨35, _⟩ => ⟨S32x1024x64, .f32⟩
  | .hbm, ⟨36, _⟩ => ⟨S32x1024x64, .f32⟩
  | .hbm, ⟨37, _⟩ => ⟨S1x1x64, .f32⟩
  | .hbm, ⟨38, _⟩ => ⟨S32x1024x64, .f32⟩
  | .hbm, ⟨39, _⟩ => ⟨S32x1024x64, .f32⟩
  | .hbm, ⟨40, _⟩ => ⟨S32x1024x64, .f32⟩
  | .hbm, ⟨41, _⟩ => ⟨S32x1024x64, .f32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]

class Facts₀ : Prop where
  reducesTo_S64x64_S64_d0 : S64x64.ReducesTo [0] S64
  h_S_ : 0 < S_.numel
  bcast_S64_S1x1x64_2 : S64.BroadcastsInDim S1x1x64 (![2] : Fin 1 → Fin S1x1x64.rank)
  bcast_S1x1x64_S32x1024x64_0_1_2 : S1x1x64.BroadcastsInDim S32x1024x64 (![0, 1, 2] : Fin 3 → Fin S32x1024x64.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  bcast_S_S32x1024x1024 : S_.BroadcastsInDim S32x1024x1024 (![] : Fin 0 → Fin S32x1024x1024.rank)
  dot_S32x1024x64_S64x64_S32x1024x64_2_0_01_1_n_n_wf : DotDims.WF S32x1024x64 S64x64 S32x1024x64 [2] [0] [0, 1] [1] [] []
  dot_S32x1024x64_S32x1024x64_S32x1024x1024_2_2_1_1_0_0_wf : DotDims.WF S32x1024x64 S32x1024x64 S32x1024x1024 [2] [2] [1] [1] [0] [0]
  dot_S32x1024x1024_S32x1024x64_S32x1024x64_2_1_1_2_0_0_wf : DotDims.WF S32x1024x1024 S32x1024x64 S32x1024x64 [2] [1] [1] [2] [0] [0]

variable [Facts₀]

def dot_S32x1024x64_S64x64_S32x1024x64_2_0_01_1_n_n : DotDims S32x1024x64 S64x64 S32x1024x64 where
  lhsContracting := [2]
  rhsContracting := [0]
  lhsNonContracting := [0, 1]
  rhsNonContracting := [1]
  lhsBatch := []
  rhsBatch := []
  wf := dot_S32x1024x64_S64x64_S32x1024x64_2_0_01_1_n_n_wf
def dot_S32x1024x64_S32x1024x64_S32x1024x1024_2_2_1_1_0_0 : DotDims S32x1024x64 S32x1024x64 S32x1024x1024 where
  lhsContracting := [2]
  rhsContracting := [2]
  lhsNonContracting := [1]
  rhsNonContracting := [1]
  lhsBatch := [0]
  rhsBatch := [0]
  wf := dot_S32x1024x64_S32x1024x64_S32x1024x1024_2_2_1_1_0_0_wf
def dot_S32x1024x1024_S32x1024x64_S32x1024x64_2_1_1_2_0_0 : DotDims S32x1024x1024 S32x1024x64 S32x1024x64 where
  lhsContracting := [2]
  rhsContracting := [1]
  lhsNonContracting := [1]
  rhsNonContracting := [2]
  lhsBatch := [0]
  rhsBatch := [0]
  wf := dot_S32x1024x1024_S32x1024x64_S32x1024x64_2_1_1_2_0_0_wf

class Facts : Prop extends Facts₀ where

variable [Facts]
-- ==== Proof.Spec.lean ====
/-
  The function both programs compute, written once over the argument arrays, index by index.

  For one member `x` (1024 rows of 64 features) of the stack `X`:
    proj x w n g     = Σ_f x[n,f] · w[f,g]                         (a row times a 64 × 64 parameter matrix)
    colSum a g       = Σ_i a[i,g]                                  (the column sums of `a`)
    score x attW a i k = Σ_g (proj x attW i g · colSum a g) · proj x attW k g
    att              = the score with its diagonal zeroed, then the leaky rectifier of slope f32(0.01)
    out x … n g      = (Σ_m att n m · proj x W m g + bias g) + proj x selfW n g
  and the whole result is `out` of member `b` at `(b, n, g)`.
-/
import Idealize.ShloMosaic.PureOps.Ideal
import Idealize.ShloMosaic.Lib.ValueIdx

noncomputable section

namespace Cert.Spec

open Idealize.ShloMosaic Idealize.ShloMosaic.ValueIdx

/-- A 64 × 64 parameter matrix, a 64-vector, and the stack of 32 members of 1024 × 64. -/
abbrev Mat := (⟨2, ![64, 64]⟩ : Shape).Idx → EReal
abbrev Vec64 := (⟨1, ![64]⟩ : Shape).Idx → EReal
abbrev Stack := (⟨3, ![32, 1024, 64]⟩ : Shape).Idx → EReal

/-- Row `n` of a member times a parameter matrix, at column `g`. -/
def proj (x : Fin 1024 → Fin 64 → EReal) (w : Mat) (n : Fin 1024) (g : Fin 64) : EReal :=
  ∑ f : Fin 64, x n f * w (ix2 f g)

/-- Column `g`'s sum. -/
def colSum (a : Mat) (g : Fin 64) : EReal := ∑ i : Fin 64, a (ix2 i g)

/-- The bilinear score of rows `i` and `k`: the projections' products weighted by the column sums. -/
def score (x : Fin 1024 → Fin 64 → EReal) (attW a : Mat) (i k : Fin 1024) : EReal :=
  ∑ g : Fin 64, (proj x attW i g * colSum a g) * proj x attW k g

/-- One off the diagonal, zero on it. -/
def offDiag (i k : Fin 1024) : EReal := if i = k then 0 else 1

/-- The leaky rectifier with the slope the two programs share, the f32 nearest 0.01: `z` where `0 ≤ z`, else slope · `z`. -/
def leaky (z : EReal) : EReal :=
  Scalar.select (Ideal.cmp .oge z 0) z (Ideal.ofBits .f32 0x3C23D70A#32 * z)

/-- The attention weight of rows `i`, `k`. -/
def att (x : Fin 1024 → Fin 64 → EReal) (attW a : Mat) (i k : Fin 1024) : EReal :=
  leaky (score x attW a i k * offDiag i k)

/-- The result of one member at row `n`, column `g`. -/
def out (x : Fin 1024 → Fin 64 → EReal) (attW W a : Mat) (bias : Vec64) (selfW : Mat) (n : Fin 1024) (g : Fin 64) : EReal :=
  (∑ m : Fin 1024, att x attW a n m * proj x W m g + bias (ix1 g)) + proj x selfW n g

/-- Member `b` of the stack. -/
def member (X : Stack) (b : Fin 32) : Fin 1024 → Fin 64 → EReal := fun n f => X (ix3 b n f)

/-- The whole result. -/
def G (X : Stack) (attW W a : Mat) (bias : Vec64) (selfW : Mat) : Stack :=
  fun j => out (member X (j 0)) attW W a bias selfW (j 1) (j 2)

theorem G_apply (X : Stack) (attW W a : Mat) (bias : Vec64) (selfW : Mat) (b : Fin 32) (n : Fin 1024) (g : Fin 64) :
    G X attW W a bias selfW (ix3 b n g) = out (member X b) attW W a bias selfW n g := rfl

end Cert.Spec

end
-- ==== Proof.LibDot.lean ====
/-
  Matrix products read at an index as plain sums over the contracted coordinate, at the ideal values, for every
  extent and element type: a matrix product into a zero accumulator (`[m,k] · [k,n]`); a stack of matrices times one
  matrix (`[G,m,k] · [k,n]`, the stack's last axis contracted with the matrix's first); and a stack times a stack
  transposed (`[G,m,k] · [G,n,k]`, batch axis 0, both last axes contracted). (A stack times a stack,
  `[G,m,k] · [G,k,n]`, is the library's `StackMember.dotGeneral_stack_apply`.)
-/
import Idealize.ShloMosaic.PureOps.Ideal.Laws
import Idealize.ShloMosaic.Lib.ValueIdx

namespace Cert.LibDot

open Idealize.ShloMosaic Idealize.ShloMosaic.ValueIdx

variable {G m n k : Nat} {φ₁ φ₂ : FTy}

/-- An `m × k` by `k × n` matrix product into the zero accumulator, at `(a, b)`: the sum over `c` of `A[a,c] · B[c,b]`. -/
theorem matmul_plain_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A stack `[G, m, k]` times one matrix `[k, n]`, at `(g, a, b)`: the sum over `c` of `A[g,a,c] · B[c,b]`. -/
theorem dotGeneral_stack_mat_apply (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r3]

/-- A stack `[G, m, k]` times a stack `[G, n, k]` transposed member by member, at `(g, a, b)`: the sum over `c` of
    `A[g,a,c] · B[g,b,c]`. -/
theorem dotGeneral_stack_transposed_apply (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

end Cert.LibDot
-- ==== Proof.KernelPayload.lean ====
/-
  What the kernel body computes from its loaded blocks, read at row `n`, column `g`, at the ideal values: the
  specification's `out` of the member the first block holds. Each `tpu.matmul` into a zero accumulator is the plain
  sum over the contracted coordinate, the lane reduction of `a` its column sums, the transpose swaps the two
  coordinates, the select on "row number = column number" is `offDiag`, the select on `0 ≤ z` is `leaky`.

  The body is restated as a composition of named stages (`pay_eq`, by unfolding), and each stage is read at an index.
-/
import proofs.«121230_j22273700397226_1_alg».proof.Proof.Gen.KernelIdeal.Skeleton
import proofs.«121230_j22273700397226_1_alg».proof.Proof.Spec
import proofs.«121230_j22273700397226_1_alg».proof.Proof.LibDot
import Idealize.ShloMosaic.Lib.Pipeline.Value
import Idealize.ShloMosaic.Lib.ValueLayout
import Idealize.ShloMosaic.PureOps.IdealRules

noncomputable section

namespace Cert.KernelIdeal.Payload

open Cert.KernelIdeal Cert.KernelIdeal.Gen Idealize.ShloMosaic Idealize.ShloMosaic.ValueIdx

/-! ## The body's stages -/

/-- The member under its leading unit axis, as a 1024 × 64 matrix. -/
def rows (x0 : FVec Ideal S1x1024x64 .f32) : FVec Ideal S1024x64 .f32 :=
  shapeCast S1024x64 x0 shapeCasts_S1x1024x64_S1024x64

/-- The member times a parameter matrix. -/
def projB (x0 : FVec Ideal S1x1024x64 .f32) (w : FVec Ideal S64x64 .f32) : FVec Ideal S1024x64 .f32 :=
  matmul dot_S1024x64_S64x64_S1024x64_1_0_0_1_n_n none (rows x0) w (constant S1024x64 .f32 0x00000000#32)

/-- The column sums of `a`, as one row copied down the 1024 rows. -/
def scaleB (x3 : FVec Ideal S64x64 .f32) : FVec Ideal S1024x64 .f32 :=
  broadcastTo S1024x64
    (shapeCast S1x64 (multiReduction .add [0] S64 x3 0x00000000#32 reduces_S64x64_S64 (.inl rfl) rfl) shapeCasts_S64_S1x64)
    broadcasts_S1x64_S1024x64

/-- The bilinear scores: the scaled projection times the projection transposed. -/
def scoreB (x0 : FVec Ideal S1x1024x64 .f32) (x1 x3 : FVec Ideal S64x64 .f32) : FVec Ideal S1024x1024 .f32 :=
  matmul dot_S1024x64_S64x1024_S1024x1024_1_0_0_1_n_n none (mulf (projB x0 x1) (scaleB x3))
    (transpose S64x1024 [1, 0] (projB x0 x1) transposes_S1024x64_p1_0_S64x1024) (constant S1024x1024 .f32 0x00000000#32)

/-- Zero where the row number is the column number, one elsewhere. -/
def maskB : FVec Ideal S1024x1024 .f32 :=
  select (cmpi .eq (iota .tc S1024x1024 32 [0] iota_S1024x1024_d0_w32) (iota .tc S1024x1024 32 [1] iota_S1024x1024_d1_w32))
    (broadcast S1024x1024 (Scalar.ofBits (F := Ideal) .f32 0x00000000#32))
    (broadcast S1024x1024 (Scalar.ofBits (F := Ideal) .f32 0x3F800000#32))

/-- The leaky rectifier: a comparison with zero, the slope's product, a select. -/
def leakyB (z : FVec Ideal S1024x1024 .f32) : FVec Ideal S1024x1024 .f32 :=
  select (cmpf .oge z (broadcast S1024x1024 (Scalar.ofBits (F := Ideal) .f32 0x00000000#32))) z
    (mulf (broadcast S1024x1024 (Scalar.ofBits (F := Ideal) .f32 0x3C23D70A#32)) z)

/-- The attention weights. -/
def attB (x0 : FVec Ideal S1x1024x64 .f32) (x1 x3 : FVec Ideal S64x64 .f32) : FVec Ideal S1024x1024 .f32 :=
  leakyB (mulf (scoreB x0 x1 x3) maskB)

/-- The bias as one row copied down the 1024 rows. -/
def biasB (x4 : FVec Ideal S64 .f32) : FVec Ideal S1024x64 .f32 :=
  broadcastTo S1024x64 (shapeCast S1x64 x4 shapeCasts_S64_S1x64) broadcasts_S1x64_S1024x64

/-- The body is the composition of its stages. -/
theorem pay_eq (x0 : Vec Ideal S1x1024x64 .f32) (x1 x2 x3 : Vec Ideal S64x64 .f32) (x4 : Vec Ideal S64 .f32)
    (x5 : Vec Ideal S64x64 .f32) :
    k0_pay2 (F := Ideal) x0 x1 x2 x3 x4 x5
      = addf (addf (matmul dot_S1024x1024_S1024x64_S1024x64_1_0_0_1_n_n none (attB x0 x1 x3) (projB x0 x2)
          (constant S1024x64 .f32 0x00000000#32)) (biasB x4)) (projB x0 x5) := rfl

/-! ## Each stage at an index -/

/-- Row `n`, feature `f` of the member. -/
theorem rows_apply (x0 : FVec Ideal S1x1024x64 .f32) (n : Fin 1024) (f : Fin 64) :
    rows x0 (ix2 n f) = x0 (ix3 (0 : Fin 1) n f) :=
  shapeCast_1ab_ab_apply x0 _ n f

/-- The projection at `(n, g)` is the specification's. -/
theorem projB_apply (x0 : FVec Ideal S1x1024x64 .f32) (w : FVec Ideal S64x64 .f32) (n : Fin 1024) (g : Fin 64) :
    projB x0 w (ix2 n g) = Cert.Spec.proj (fun n f => x0 (ix3 (0 : Fin 1) n f)) w n g := by
  refine (Cert.LibDot.matmul_plain_zero_apply dot_S1024x64_S64x64_S1024x64_1_0_0_1_n_n_wf none (rows x0) w n g).trans ?_
  unfold Cert.Spec.proj
  exact Finset.sum_congr rfl fun f _ => by rw [rows_apply]

/-- A 64-vector cast to one row and copied down the rows reads, at `(n, g)`, its entry `g`. -/
theorem row_copied_apply (v : FVec Ideal S64 .f32) (n : Fin 1024) (g : Fin 64) :
    broadcastTo S1024x64 (shapeCast S1x64 v shapeCasts_S64_S1x64) broadcasts_S1x64_S1024x64 (ix2 n g) = v (ix1 g) :=
  (broadcastTo_1b_ab_apply _ _ n g).trans (shapeCast_a_1a_apply v _ (0 : Fin 1) g)

/-- The lane reduction of `a` over its rows, at `g`, is column `g`'s sum. -/
theorem colSum_apply (x3 : FVec Ideal S64x64 .f32) (hφ : FKind.Formats .f32)
    (hacc : (0x00000000#32 : BitVec 32) = FKind.add.neutral .f32 hφ) (g : Fin 64) :
    multiReduction .add [0] S64 x3 0x00000000#32 reduces_S64x64_S64 hφ hacc (ix1 g) = Cert.Spec.colSum x3 g := by
  refine (Ideal.multiReduction_add_single x3 0x00000000#32 reduces_S64x64_S64 hφ hacc (ix1 g)).trans ?_
  unfold Cert.Spec.colSum
  refine Finset.sum_congr rfl fun i _ => congrArg x3 (funext fun a => Fin.ext ?_)
  match a with
  | ⟨0, _⟩ => rfl
  | ⟨1, _⟩ => rfl

theorem scaleB_apply (x3 : FVec Ideal S64x64 .f32) (n : Fin 1024) (g : Fin 64) :
    scaleB x3 (ix2 n g) = Cert.Spec.colSum x3 g :=
  (row_copied_apply _ n g).trans (colSum_apply x3 _ _ g)

/-- The score of rows `i`, `k` is the specification's. -/
theorem scoreB_apply (x0 : FVec Ideal S1x1024x64 .f32) (x1 x3 : FVec Ideal S64x64 .f32) (i k : Fin 1024) :
    scoreB x0 x1 x3 (ix2 i k) = Cert.Spec.score (fun n f => x0 (ix3 (0 : Fin 1) n f)) x1 x3 i k := by
  refine (Cert.LibDot.matmul_plain_zero_apply dot_S1024x64_S64x1024_S1024x1024_1_0_0_1_n_n_wf none _ _ i k).trans ?_
  unfold Cert.Spec.score
  refine Finset.sum_congr rfl fun g _ => ?_
  rw [mulf_apply, transpose_ix2_apply, projB_apply, projB_apply, scaleB_apply]

/-- Two row numbers below 1024 are equal as 32-bit words exactly when they are equal. -/
theorem cmpi_eq_ofNat (i k : Fin 1024) :
    IntOp.cmpi .eq (BitVec.ofNat 32 i.val) (BitVec.ofNat 32 k.val) = if i = k then 1#1 else 0#1 := by
  have hi := i.isLt
  have hk := k.isLt
  unfold IntOp.cmpi
  by_cases h : i = k
  · subst h; simp
  · rw [if_neg h]
    have hne : ¬ (BitVec.ofNat 32 i.val = BitVec.ofNat 32 k.val) := by
      intro e
      have e' := congrArg BitVec.toNat e
      rw [BitVec.toNat_ofNat, BitVec.toNat_ofNat, Nat.mod_eq_of_lt (by omega), Nat.mod_eq_of_lt (by omega)] at e'
      exact h (Fin.ext e')
    have hb : (BitVec.ofNat 32 i.val == BitVec.ofNat 32 k.val) = false := beq_eq_false_iff_ne.mpr hne
    rw [hb]
    rfl

/-- The mask at `(i, k)`. -/
theorem maskB_apply (i k : Fin 1024) : maskB (ix2 i k) = Cert.Spec.offDiag i k := by
  show Scalar.select (IntOp.cmpi .eq (iota .tc S1024x1024 32 [0] iota_S1024x1024_d0_w32 (ix2 i k))
      (iota .tc S1024x1024 32 [1] iota_S1024x1024_d1_w32 (ix2 i k)))
    (Ideal.ofBits .f32 0x00000000#32) (Ideal.ofBits .f32 0x3F800000#32) = _
  rw [iota_single_apply, iota_single_apply]
  show Scalar.select (IntOp.cmpi .eq (BitVec.ofNat 32 i.val) (BitVec.ofNat 32 k.val)) _ _ = _
  rw [cmpi_eq_ofNat i k]
  unfold Cert.Spec.offDiag
  by_cases h : i = k
  · rw [if_pos h, if_pos h, select_one, Ideal.ofBits_zero_f32]
  · rw [if_neg h, if_neg h, select_zero]
    exact IdealRules.sign_bit.ideal_onePat .f32

/-- The rectifier at an index. -/
theorem leakyB_apply (z : FVec Ideal S1024x1024 .f32) (j : S1024x1024.Idx) : leakyB z j = Cert.Spec.leaky (z j) := by
  show Scalar.select (Ideal.cmp .oge (z j) (Ideal.ofBits .f32 0x00000000#32)) (z j) (Ideal.ofBits .f32 0x3C23D70A#32 * z j) = _
  rw [Ideal.ofBits_zero_f32]
  rfl

/-- The attention weight of rows `i`, `k` is the specification's. -/
theorem attB_apply (x0 : FVec Ideal S1x1024x64 .f32) (x1 x3 : FVec Ideal S64x64 .f32) (i k : Fin 1024) :
    attB x0 x1 x3 (ix2 i k) = Cert.Spec.att (fun n f => x0 (ix3 (0 : Fin 1) n f)) x1 x3 i k := by
  unfold attB Cert.Spec.att
  rw [leakyB_apply, mulf_apply, scoreB_apply, maskB_apply]

/-! ## The body at an index -/

/-- The body's result at `(n, g)` from the loaded blocks: `x0` one member of `X` (under a leading unit axis),
    `x1` = `att_W`, `x2` = `W`, `x3` = `a`, `x4` = `bias_W`, `x5` = `self_W`. -/
theorem pay_apply (x0 : Vec Ideal S1x1024x64 .f32) (x1 x2 x3 : Vec Ideal S64x64 .f32) (x4 : Vec Ideal S64 .f32)
    (x5 : Vec Ideal S64x64 .f32) (n : Fin 1024) (g : Fin 64) :
    k0_pay2 (F := Ideal) x0 x1 x2 x3 x4 x5 (ix2 n g)
      = Cert.Spec.out (fun n f => x0 (ix3 (0 : Fin 1) n f)) x1 x2 x3 x4 x5 n g := by
  rw [pay_eq]
  show (matmul dot_S1024x1024_S1024x64_S1024x64_1_0_0_1_n_n none (attB x0 x1 x3) (projB x0 x2)
      (constant S1024x64 .f32 0x00000000#32) (ix2 n g) + biasB x4 (ix2 n g)) + projB x0 x5 (ix2 n g) = _
  unfold Cert.Spec.out
  rw [projB_apply, show biasB x4 (ix2 n g) = x4 (ix1 g) from row_copied_apply x4 n g]
  refine congrArg (· + _) (congrArg (· + _) ?_)
  refine (Cert.LibDot.matmul_plain_zero_apply dot_S1024x1024_S1024x64_S1024x64_1_0_0_1_n_n_wf none _ _ n g).trans ?_
  exact Finset.sum_congr rfl fun m _ => by rw [attB_apply, projB_apply]

end Cert.KernelIdeal.Payload

end
-- ==== Proof.KernelValue.lean ====
/-
  From blocks to the array: grid point `t` stages member `t` of `X` and the five parameter arrays whole, and writes
  back block `t` of the result; so what it writes is block `t` of the specification `Spec.G` of the argument arrays,
  the 32 blocks cover the result array, and after the run the result array IS `Spec.G`.
-/
import proofs.«121230_j22273700397226_1_alg».proof.Proof.Gen.KernelIdeal.Value
import proofs.«121230_j22273700397226_1_alg».proof.Proof.KernelPayload

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification at the kernel's argument arrays on core `c` (window 1 stages `att_W` = argument 3, window 2
    `W` = argument 2). -/
abbrev spec (c : Dev nD) : Cert.Spec.Stack :=
  Cert.Spec.G (m ((c : Thread nD τ).loc main_arg0)) (m ((c : Thread nD τ).loc main_arg3)) (m ((c : Thread nD τ).loc main_arg2)) (m ((c : Thread nD τ).loc main_arg4)) (m ((c : Thread nD τ).loc main_arg5)) (m ((c : Thread nD τ).loc main_arg6))

/-- The zero offsets of a whole block, at ranks 3, 2 and 1. -/
private theorem zero3 : (![0, 0, 0] : Fin 3 → Nat) = fun _ => 0 := funext fun a => by fin_cases a <;> rfl
private theorem zero2 : (![0, 0] : Fin 2 → Nat) = fun _ => 0 := funext fun a => by fin_cases a <;> rfl
private theorem zero1 : (![0] : Fin 1 → Nat) = fun _ => 0 := funext fun a => by fin_cases a <;> rfl

/-- The printed index maps, decided once over the 32 grid points: the member window and the result window are at block
    `(t, 0, 0)`, every parameter window at block 0. -/
theorem index_maps : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- What the body leaves at `(0, n, g)` of its result block, from blocks `x0 … x5` where `x0` is member `b` of a stack
    `X`: the specification of `X` and the parameter blocks at `(b, n, g)`. -/
theorem out_block_apply (X : Cert.Spec.Stack) (b : Fin 32) (x0 : Vec Ideal S1x1024x64 .f32) (x1 x2 x3 : Vec Ideal S64x64 .f32)
    (x4 : Vec Ideal S64 .f32) (x5 : Vec Ideal S64x64 .f32)
    (h0 : ∀ (n : Fin 1024) (f : Fin 64), x0 (ix3 (0 : Fin 1) n f) = X (ix3 b n f))
    (y : S1x1024x64.Idx) (n : Fin 1024) (g : Fin 64) (hn : (y 1).val = n.val) (hg : (y 2).val = g.val) :
    out0_6 x0 x1 x2 x3 x4 x5 y = Cert.Spec.G X x1 x2 x3 x4 x5 (ix3 b n g) := by
  unfold out0_6
  rw [Value.canon6_eq]
  show k0_pay2 (View.ld x0 r0_0) (View.ld x1 r0_1) (View.ld x2 r0_1) (View.ld x3 r0_1) (View.ld x4 r0_2) (View.ld x5 r0_1) (Value.ix6_0 y) = _
  simp only [View.ld_unit_zero (S := S1x1024x64) zero3, View.ld_unit_zero (S := S64x64) zero2, View.ld_unit_zero (S := S64) zero1]
  have hy : Value.ix6_0 y = ix2 n g := by
    funext a; apply Fin.ext
    match a with
    | ⟨0, _⟩ => exact hn
    | ⟨1, _⟩ => exact hg
  rw [hy, Payload.pay_apply, Cert.Spec.G_apply]
  unfold Cert.Spec.member
  congr 1
  funext n' f
  exact h0 n' f

/-- The block of `att_W` at any point is the whole array: its block index is 0 and the block has the array's extents, so
    index `y` of the block is index `0 · 64 + y` of the array on each axis. -/
theorem attW_block (c : Dev nD) (t : Fin cfg0.N) : (iblk m c 1 t : Vec Ideal S64x64 .f32) = V m c main_arg3 := by
  obtain ⟨-, -, -, e0, e1, -⟩ := index_maps t
  refine funext fun (y : S64x64.Idx) => ?_
  unfold iblk
  rw [View.read_apply]
  show V m c main_arg3 (((cfg0.win 1).blk t).view.emb y) = V m c main_arg3 y
  congr 1
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The block of `W` at any point is the whole array (block index 0, the array's extents). -/
theorem W_block (c : Dev nD) (t : Fin cfg0.N) : (iblk m c 2 t : Vec Ideal S64x64 .f32) = V m c main_arg2 := by
  obtain ⟨-, -, -, -, -, e0, e1, -⟩ := index_maps t
  refine funext fun (y : S64x64.Idx) => ?_
  unfold iblk
  rw [View.read_apply]
  show V m c main_arg2 (((cfg0.win 2).blk t).view.emb y) = V m c main_arg2 y
  congr 1
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The block of `a` at any point is the whole array (block index 0, the array's extents). -/
theorem a_block (c : Dev nD) (t : Fin cfg0.N) : (iblk m c 3 t : Vec Ideal S64x64 .f32) = V m c main_arg4 := by
  obtain ⟨-, -, -, -, -, -, -, e0, e1, -⟩ := index_maps t
  refine funext fun (y : S64x64.Idx) => ?_
  unfold iblk
  rw [View.read_apply]
  show V m c main_arg4 (((cfg0.win 3).blk t).view.emb y) = V m c main_arg4 y
  congr 1
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The block of `bias_W` at any point is the whole 64-vector (block index 0, the array's extent). -/
theorem bias_block (c : Dev nD) (t : Fin cfg0.N) : (iblk m c 4 t : Vec Ideal S64 .f32) = V m c main_arg5 := by
  obtain ⟨-, -, -, -, -, -, -, -, -, e0, -⟩ := index_maps t
  refine funext fun (y : S64.Idx) => ?_
  unfold iblk
  rw [View.read_apply]
  show V m c main_arg5 (((cfg0.win 4).blk t).view.emb y) = V m c main_arg5 y
  congr 1
  funext a; apply Fin.ext
  match a with
  | ⟨0, _⟩ => show win0_4.index t (0 : Fin 1) * 64 + 1 * (y 0).val = (y 0).val; omega

/-- The block of `self_W` at any point is the whole array (block index 0, the array's extents). -/
theorem selfW_block (c : Dev nD) (t : Fin cfg0.N) : (iblk m c 5 t : Vec Ideal S64x64 .f32) = V m c main_arg6 := by
  obtain ⟨-, -, -, -, -, -, -, -, -, -, e0, e1, -⟩ := index_maps t
  refine funext fun (y : S64x64.Idx) => ?_
  unfold iblk
  rw [View.read_apply]
  show V m c main_arg6 (((cfg0.win 5).blk t).view.emb y) = V m c main_arg6 y
  congr 1
  funext a; apply Fin.ext
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- The block of `X` at point `t` is member `t`: read at `(0, n, f)` it is the stack at `(t · 1 + 0, n, f)`. -/
theorem member_block (c : Dev nD) (t : Fin cfg0.N) (b : Fin 32) (hb : b.val = t.val) (n : Fin 1024) (f : Fin 64) :
    (iblk m c 0 t : Vec Ideal S1x1024x64 .f32) (ix3 (0 : Fin 1) n f) = V m c main_arg0 (ix3 b n f) := by
  obtain ⟨e0, e1, e2, -⟩ := index_maps t
  unfold iblk
  rw [View.read_apply]
  show V m c main_arg0 (((cfg0.win 0).blk t).view.emb (ix3 (0 : Fin 1) n f)) = V m c main_arg0 (ix3 b n f)
  congr 1
  funext a; apply Fin.ext
  match a with
  | ⟨0, _⟩ => show win0_0.index t (0 : Fin 3) * 1 + 1 * (0 : Fin 1).val = b.val; rw [e0, hb]; show t.val * 1 + 1 * 0 = t.val; omega
  | ⟨1, _⟩ => show win0_0.index t (1 : Fin 3) * 1024 + 1 * n.val = n.val; omega
  | ⟨2, _⟩ => show win0_0.index t (2 : Fin 3) * 64 + 1 * f.val = f.val; omega

/-- What point `t` writes back is block `t` of the specification of the argument arrays: index `(0, n, g)` of the block is
    index `(t, n, g)` of the array, where the body's result is the specification's `out` of member `t`. -/
theorem flushed_eq (c : Dev nD) (t : Fin cfg0.N) :
    (dats m 0 c).flushed 6 t = ((cfg0.win 6).blk t).view.read (Elt Ideal) (spec m c) := by
  have ht : t.val < 32 := lt_of_lt_of_eq t.isLt N_0
  obtain ⟨-, -, -, -, -, -, -, -, -, -, -, -, e0, e1, e2⟩ := index_maps t
  rw [Value.flushed6]
  refine funext fun (y : S1x1024x64.Idx) => ?_
  rw [View.read_apply]
  show out0_6 (iblk m c 0 t) (iblk m c 1 t) (iblk m c 2 t) (iblk m c 3 t) (iblk m c 4 t) (iblk m c 5 t) y
    = spec m c (((cfg0.win 6).blk t).view.emb y)
  have hy0 : (y 0).val < 1 := (y 0).isLt
  have hy1 : (y 1).val < 1024 := (y 1).isLt
  have hy2 : (y 2).val < 64 := (y 2).isLt
  have hemb : ((cfg0.win 6).blk t).view.emb y
      = ix3 (⟨t.val, ht⟩ : Fin 32) (⟨(y 1).val, hy1⟩ : Fin 1024) (⟨(y 2).val, hy2⟩ : Fin 64) := by
    funext a; apply Fin.ext
    match a with
    | ⟨0, _⟩ => show win0_6.index t (0 : Fin 3) * 1 + 1 * (y 0).val = t.val; omega
    | ⟨1, _⟩ => show win0_6.index t (1 : Fin 3) * 1024 + 1 * (y 1).val = (y 1).val; omega
    | ⟨2, _⟩ => show win0_6.index t (2 : Fin 3) * 64 + 1 * (y 2).val = (y 2).val; omega
  rw [hemb]
  refine (out_block_apply (V m c main_arg0) ⟨t.val, ht⟩ (iblk m c 0 t) (iblk m c 1 t) (iblk m c 2 t) (iblk m c 3 t)
    (iblk m c 4 t) (iblk m c 5 t) (fun n f => member_block m c t ⟨t.val, ht⟩ rfl n f) y ⟨(y 1).val, hy1⟩ ⟨(y 2).val, hy2⟩ rfl rfl).trans ?_
  rw [attW_block m c t, W_block m c t, a_block m c t, bias_block m c t, selfW_block m c t]

/-- An index of the result array is in point `t`'s block iff each coordinate is in the block's range on its axis. -/
theorem mem_blk (t : Fin cfg0.N) (i : S32x1024x64.Idx) :
    i ∈ ((cfg0.win 6).blk t).view.set ↔ ∀ a : Fin 3, win0_6.index t a * S1x1024x64.size a ≤ (i a).val ∧ (i a).val < win0_6.index t a * S1x1024x64.size a + S1x1024x64.size a := by
  show i ∈ ((View.whole main_v0).slice (win0_6.rect t)).set ↔ _
  rw [View.set_slice_whole, Rect.mem_set_unit]
  exact Iff.rfl

/-- Every index `(b, n, g)` of the result array is in some point's block, namely point `b`'s. -/
theorem cover (i : S32x1024x64.Idx) :
    ∃ t : Fin cfg0.N, (cfg0.win 6).flush t = true ∧ i ∈ ((cfg0.win 6).blk t).view.set := by
  have hi0 : (i 0).val < 32 := (i 0).isLt
  have hi1 : (i 1).val < 1024 := (i 1).isLt
  have hi2 : (i 2).val < 64 := (i 2).isLt
  have hN : (i 0).val < cfg0.N := lt_of_lt_of_eq hi0 N_0.symm
  refine ⟨⟨(i 0).val, hN⟩, flush0_6 _, ?_⟩
  obtain ⟨-, -, -, -, -, -, -, -, -, -, -, -, e0, e1, e2⟩ := index_maps ⟨(i 0).val, hN⟩
  have e0' : win0_6.index ⟨(i 0).val, hN⟩ (0 : Fin 3) = (i 0).val := e0
  rw [mem_blk]
  intro a
  match a with
  | ⟨0, _⟩ => show win0_6.index ⟨(i 0).val, hN⟩ (0 : Fin 3) * 1 ≤ (i 0).val ∧ (i 0).val < win0_6.index ⟨(i 0).val, hN⟩ (0 : Fin 3) * 1 + 1; omega
  | ⟨1, _⟩ => show win0_6.index ⟨(i 0).val, hN⟩ (1 : Fin 3) * 1024 ≤ (i 1).val ∧ (i 1).val < win0_6.index ⟨(i 0).val, hN⟩ (1 : Fin 3) * 1024 + 1024; omega
  | ⟨2, _⟩ => show win0_6.index ⟨(i 0).val, hN⟩ (2 : Fin 3) * 64 ≤ (i 2).val ∧ (i 2).val < win0_6.index ⟨(i 0).val, hN⟩ (2 : Fin 3) * 64 + 64; omega

/-- Each point writes its block of the specification and the blocks cover the array, so after the last point the result
    array is the specification of the argument arrays. -/
theorem final (c : Dev nD) : (dats m 0 c).arrAt 6 cfg0.N = spec m c :=
  (dats m 0 c).arrAt_eq_of_cover 6 (spec m c) (fun t _ => flushed_eq m c t) cover

/-- After the run the result array is the specification of the arguments, which are unchanged. -/
theorem run : θ_run defs (onTc (τ := τ) (main (F := Ideal))) ⟨m, fun _ => 0, ρ⟩ fun r => ∀ c : Dev nD,
      r.2.mem ((c : Thread nD τ).loc main_v0) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.ArrayValue

end
-- ==== Proof.RefTerm.lean ====
/-
  The reference program's result as ONE term of its argument arrays, at any float instance: the operations of its
  @main composed, grouped by what they compute — a member's rows times a parameter matrix (`projV`), the column
  sums of `a` (`colSumV`), a 64-vector copied to every row of every member (`everyRow`), the bilinear scores
  (`scoreV`), the off-diagonal mask (`offDiagV`), the masked scores (`maskedV`), the leaky rectifier (`leakyV`).
-/
import proofs.«121230_j22273700397226_1_alg».proof.Proof.Gen.ReferenceIdeal

noncomputable section

namespace Cert.ReferenceIdeal.RefTerm

open Cert.ReferenceIdeal Cert.ReferenceIdeal.Gen Idealize.ShloMosaic Idealize.SL.Sem

variable {F : FTy → Type} [FloatOps F]

/-- Every member's rows times a 64 × 64 parameter matrix. -/
def projV (X : FVec F S32x1024x64 .f32) (w : FVec F S64x64 .f32) : FVec F S32x1024x64 .f32 :=
  Host.dotGeneral dot_S32x1024x64_S64x64_S32x1024x64_2_0_01_1_n_n none X w

/-- The column sums of `a`, from a zero initial value. -/
def colSumV (a : FVec F S64x64 .f32) : FVec F S64 .f32 :=
  Host.reduceAdd a (constant S_ .f32 0x00000000#32) reducesTo_S64x64_S64_d0 h_S_

/-- A 64-vector copied to every row of every member. -/
def everyRow (v : FVec F S64 .f32) : FVec F S32x1024x64 .f32 :=
  broadcastInDim S32x1024x64 ![0, 1, 2] bcast_S1x1x64_S32x1024x64_0_1_2 (broadcastInDim S1x1x64 ![2] bcast_S64_S1x1x64_2 v)

/-- The bilinear scores, member by member. -/
def scoreV (X : FVec F S32x1024x64 .f32) (attW a : FVec F S64x64 .f32) : FVec F S32x1024x1024 .f32 :=
  Host.dotGeneral dot_S32x1024x64_S32x1024x64_S32x1024x1024_2_2_1_1_0_0 none
    (mulf (projV X attW) (everyRow (colSumV a))) (projV X attW)

/-- One minus the identity matrix: the row number compared with the column number. -/
def offDiagV : FVec F S1024x1024 .f32 :=
  subf (broadcastInDim S1024x1024 ![] bcast_S_S1024x1024 (constant S_ .f32 0x3F800000#32))
    (uitofp .f32 (cmpi .eq (addi (iotaInDim S1024x1024 32 0) (broadcastInDim S1024x1024 ![] bcast_S_S1024x1024 (constantI S_ 32 0#32)))
      (iotaInDim S1024x1024 32 1)))

/-- The scores with every member's diagonal zeroed. -/
def maskedV (X : FVec F S32x1024x64 .f32) (attW a : FVec F S64x64 .f32) : FVec F S32x1024x1024 .f32 :=
  mulf (scoreV X attW a)
    (broadcastInDim S32x1024x1024 ![0, 1, 2] bcast_S1x1024x1024_S32x1024x1024_0_1_2
      (broadcastInDim S1x1024x1024 ![1, 2] bcast_S1024x1024_S1x1024x1024_1_2 offDiagV))

/-- The leaky rectifier, as the outlined functions spell it: a comparison with zero, the slope's product, a select. -/
def leakyV (z : FVec F S32x1024x1024 .f32) : FVec F S32x1024x1024 .f32 :=
  select (cmpf .oge z (broadcastInDim S32x1024x1024 ![] bcast_S_S32x1024x1024 (constant S_ .f32 0x00000000#32))) z
    (mulf (broadcastInDim S32x1024x1024 ![] bcast_S_S32x1024x1024 (id (constant S_ .f32 0x3C23D70A#32))) z)

/-- The reference's result of its arguments `X`, `W`, `att_W`, `a`, `bias_W`, `self_W` (in @main's order; `A` is not read). -/
def refTerm (X : FVec F S32x1024x64 .f32) (W attW a : FVec F S64x64 .f32) (bias : FVec F S64 .f32) (selfW : FVec F S64x64 .f32) :
    FVec F S32x1024x64 .f32 :=
  addf (addf (Host.dotGeneral dot_S32x1024x1024_S32x1024x64_S32x1024x64_2_1_1_2_0_0 none (leakyV (maskedV X attW a)) (projV X W))
    (everyRow bias)) (projV X selfW)

end Cert.ReferenceIdeal.RefTerm

end
-- ==== Proof.RefRun.lean ====
/-
  The reference program's run: @main is a straight line of host operations (the two outlined functions — the leaky
  rectifier and the select under it — unfolded at their call), so every weakly fair execution terminates with the
  result buffer at the operations' composed term of the arguments, `RefTerm.refTerm`, and the arguments unchanged.
-/
import proofs.«121230_j22273700397226_1_alg».proof.Proof.RefTerm
import Idealize.ShloMosaic.Lib.StableHlo.Run

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-- @main as one straight line: its own twenty-one operations up to the slope constant, the leaky rectifier's six and
    the select under it written at the call's buffers, then the seven operations after the call. -/
private abbrev ops : List (HloOp τ sig (Elt F)) :=
  [ binary main_arg0 main_arg3 main_v0 ((fun l r => Host.dotGeneral dot_S32x1024x64_S64x64_S32x1024x64_2_0_01_1_n_n none l r) : (⟨S32x1024x64, .f32⟩ : BufTy).Contents (Elt F) → (⟨S64x64, .f32⟩ : BufTy).Contents (Elt F) → (⟨S32x1024x64, .f32⟩ : BufTy).Contents (Elt F)),
    nullary main_cst (constant S_ .f32 0x00000000#32),
    binary main_arg4 main_cst main_v1 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    unary main_v1 main_v2 (broadcastInDim S1x1x64 ![2] bcast_S64_S1x1x64_2 : (⟨S64, .f32⟩ : BufTy).Contents (Elt F) → (⟨S1x1x64, .f32⟩ : BufTy).Contents (Elt F)),
    unary main_v2 main_v3 (broadcastInDim S32x1024x64 ![0, 1, 2] bcast_S1x1x64_S32x1024x64_0_1_2 : (⟨S1x1x64, .f32⟩ : BufTy).Contents (Elt F) → (⟨S32x1024x64, .f32⟩ : BufTy).Contents (Elt F)),
    binary main_v0 main_v3 main_v4 (mulf : (⟨S32x1024x64, .f32⟩ : BufTy).Contents (Elt F) → (⟨S32x1024x64, .f32⟩ : BufTy).Contents (Elt F) → (⟨S32x1024x64, .f32⟩ : BufTy).Contents (Elt F)),
    binary main_v4 main_v0 main_v5 ((fun l r => Host.dotGeneral dot_S32x1024x64_S32x1024x64_S32x1024x1024_2_2_1_1_0_0 none l r) : (⟨S32x1024x64, .f32⟩ : BufTy).Contents (Elt F) → (⟨S32x1024x64, .f32⟩ : BufTy).Contents (Elt F) → (⟨S32x1024x1024, .f32⟩ : BufTy).Contents (Elt F)),
    nullary main_v6 (iotaInDim S1024x1024 32 0),
    nullary main_v7 (iotaInDim S1024x1024 32 1),
    nullary main_c (constantI S_ 32 0#32),
    unary main_c main_v8 (broadcastInDim S1024x1024 ![] bcast_S_S1024x1024 : (⟨S_, .i32⟩ : BufTy).Contents (Elt F) → (⟨S1024x1024, .i32⟩ : BufTy).Contents (Elt F)),
    binary main_v6 main_v8 main_v9 (addi : (⟨S1024x1024, .i32⟩ : BufTy).Contents (Elt F) → (⟨S1024x1024, .i32⟩ : BufTy).Contents (Elt F) → (⟨S1024x1024, .i32⟩ : BufTy).Contents (Elt F)),
    binary main_v9 main_v7 main_v10 (cmpi .eq : (⟨S1024x1024, .i32⟩ : BufTy).Contents (Elt F) → (⟨S1024x1024, .i32⟩ : BufTy).Contents (Elt F) → (⟨S1024x1024, .i1⟩ : BufTy).Contents (Elt F)),
    unary main_v10 main_v11 (uitofp .f32 : (⟨S1024x1024, .i1⟩ : BufTy).Contents (Elt F) → (⟨S1024x1024, .f32⟩ : BufTy).Contents (Elt F)),
    nullary main_cst_0 (constant S_ .f32 0x3F800000#32),
    unary main_cst_0 main_v12 (broadcastInDim S1024x1024 ![] bcast_S_S1024x1024 : (⟨S_, .f32⟩ : BufTy).Contents (Elt F) → (⟨S1024x1024, .f32⟩ : BufTy).Contents (Elt F)),
    binary main_v12 main_v11 main_v13 (subf : (⟨S1024x1024, .f32⟩ : BufTy).Contents (Elt F) → (⟨S1024x1024, .f32⟩ : BufTy).Contents (Elt F) → (⟨S1024x1024, .f32⟩ : BufTy).Contents (Elt F)),
    unary main_v13 main_v14 (broadcastInDim S1x1024x1024 ![1, 2] bcast_S1024x1024_S1x1024x1024_1_2 : (⟨S1024x1024, .f32⟩ : BufTy).Contents (Elt F) → (⟨S1x1024x1024, .f32⟩ : BufTy).Contents (Elt F)),
    unary main_v14 main_v15 (broadcastInDim S32x1024x1024 ![0, 1, 2] bcast_S1x1024x1024_S32x1024x1024_0_1_2 : (⟨S1x1024x1024, .f32⟩ : BufTy).Contents (Elt F) → (⟨S32x1024x1024, .f32⟩ : BufTy).Contents (Elt F)),
    binary main_v5 main_v15 main_v16 (mulf : (⟨S32x1024x1024, .f32⟩ : BufTy).Contents (Elt F) → (⟨S32x1024x1024, .f32⟩ : BufTy).Contents (Elt F) → (⟨S32x1024x1024, .f32⟩ : BufTy).Contents (Elt F)),
    nullary main_cst_1 (constant S_ .f32 0x3C23D70A#32),
    TRef.nullary main_call0.cst (constant S_ .f32 0x00000000#32),
    TRef.unary main_call0.cst main_call0.v0 (broadcastInDim S32x1024x1024 ![] bcast_S_S32x1024x1024),
    TRef.binary (.of main_v16) main_call0.v0 main_call0.v1 (cmpf .oge),
    TRef.unary (.of main_cst_1) main_call0.v2 id,
    TRef.unary main_call0.v2 main_call0.v3 (broadcastInDim S32x1024x1024 ![] bcast_S_S32x1024x1024),
    TRef.binary main_call0.v3 (.of main_v16) main_call0.v4 mulf,
    TRef.ternary main_call0.v1 (.of main_v16) main_call0.v4 main_call0.call0.v0 select,
    binary main_arg0 main_arg2 main_v18 ((fun l r => Host.dotGeneral dot_S32x1024x64_S64x64_S32x1024x64_2_0_01_1_n_n none l r) : (⟨S32x1024x64, .f32⟩ : BufTy).Contents (Elt F) → (⟨S64x64, .f32⟩ : BufTy).Contents (Elt F) → (⟨S32x1024x64, .f32⟩ : BufTy).Contents (Elt F)),
    binary main_v17 main_v18 main_v19 ((fun l r => Host.dotGeneral dot_S32x1024x1024_S32x1024x64_S32x1024x64_2_1_1_2_0_0 none l r) : (⟨S32x1024x1024, .f32⟩ : BufTy).Contents (Elt F) → (⟨S32x1024x64, .f32⟩ : BufTy).Contents (Elt F) → (⟨S32x1024x64, .f32⟩ : BufTy).Contents (Elt F)),
    unary main_arg5 main_v20 (broadcastInDim S1x1x64 ![2] bcast_S64_S1x1x64_2 : (⟨S64, .f32⟩ : BufTy).Contents (Elt F) → (⟨S1x1x64, .f32⟩ : BufTy).Contents (Elt F)),
    unary main_v20 main_v21 (broadcastInDim S32x1024x64 ![0, 1, 2] bcast_S1x1x64_S32x1024x64_0_1_2 : (⟨S1x1x64, .f32⟩ : BufTy).Contents (Elt F) → (⟨S32x1024x64, .f32⟩ : BufTy).Contents (Elt F)),
    binary main_v19 main_v21 main_v22 (addf : (⟨S32x1024x64, .f32⟩ : BufTy).Contents (Elt F) → (⟨S32x1024x64, .f32⟩ : BufTy).Contents (Elt F) → (⟨S32x1024x64, .f32⟩ : BufTy).Contents (Elt F)),
    binary main_arg0 main_arg6 main_v23 ((fun l r => Host.dotGeneral dot_S32x1024x64_S64x64_S32x1024x64_2_0_01_1_n_n none l r) : (⟨S32x1024x64, .f32⟩ : BufTy).Contents (Elt F) → (⟨S64x64, .f32⟩ : BufTy).Contents (Elt F) → (⟨S32x1024x64, .f32⟩ : BufTy).Contents (Elt F)),
    binary main_v22 main_v23 main_v24 (addf : (⟨S32x1024x64, .f32⟩ : BufTy).Contents (Elt F) → (⟨S32x1024x64, .f32⟩ : BufTy).Contents (Elt F) → (⟨S32x1024x64, .f32⟩ : BufTy).Contents (Elt F)) ]

set_option maxRecDepth 2048 in
/-- @main is that line: the two outlined functions unfolded at their calls, the sequencing reassociated. -/
private theorem main_eq (c : Dev nD) : main (F := F) c = seq ops := by
  simp only [main, fn_leaky_relu.body, fn_where.body, seq, bind_assoc, pure_bind]

private theorem scopedRefs_eq : (Finset.univ.filter fun b : Ref sig .tc => b.isScoped) = ∅ := by decide
private theorem scopedSems_eq : (Finset.univ.filter fun sm : SemLoc sig => sm.isScoped .tc) = ∅ := by decide

/-- Every operation of the line touches TensorCore buffers only. -/
private theorem ops_sub : (ops : List (HloOp τ sig (Elt F))).Forall fun op => op.bufs ⊆ tcRefs τ sig :=
  ⟨binary_bufs_sub .., nullary_bufs_sub .., binary_bufs_sub .., unary_bufs_sub .., unary_bufs_sub .., binary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., binary_bufs_sub ..,
    unary_bufs_sub .., unary_bufs_sub .., binary_bufs_sub .., binary_bufs_sub .., binary_bufs_sub ..⟩

/-- On every device, at any float instance, from any memory with zero counters: every weakly fair execution of @main
    terminates with the result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = refTerm (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v24).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp)⟩)
    (run_seq scopedRefs_eq scopedSems_eq defs main (fun _ => ops) main_eq (fun _ => ops_sub) m ρ)

end Cert.ReferenceIdeal.RefRun

end
-- ==== Proof.RefValue.lean ====
/-
  The reference's term at the ideal values is the specification: read at `(b, n, g)`, each matrix product is the
  plain sum over the contracted coordinate, the host's column sum is zero plus the sum, the broadcasts read the
  coordinate they copy, one minus the indicator of the diagonal is `offDiag`, and the outlined rectifier is `leaky`.
-/
import proofs.«121230_j22273700397226_1_alg».proof.Proof.RefTerm
import proofs.«121230_j22273700397226_1_alg».proof.Proof.Spec
import proofs.«121230_j22273700397226_1_alg».proof.Proof.LibDot
import Idealize.ShloMosaic.Lib.Pipeline.Value
import Idealize.ShloMosaic.Lib.StackMember

noncomputable section

namespace Cert.ReferenceIdeal.RefValue

open Cert.ReferenceIdeal Cert.ReferenceIdeal.Gen Cert.ReferenceIdeal.RefTerm Idealize.ShloMosaic Idealize.ShloMosaic.ValueIdx

/-- Rows of member `b` times a parameter matrix, at `(b, n, g)`: the sum over the feature `f` of `X[b,n,f] · w[f,g]`. -/
private theorem projV_apply (X : FVec Ideal S32x1024x64 .f32) (w : FVec Ideal S64x64 .f32) (b : Fin 32) (n : Fin 1024)
    (g : Fin 64) : projV X w (ix3 b n g) = Cert.Spec.proj (Cert.Spec.member X b) w n g := by
  refine (Cert.LibDot.dotGeneral_stack_mat_apply dot_S32x1024x64_S64x64_S32x1024x64_2_0_01_1_n_n_wf none X w b n g).trans ?_
  rfl

/-- The column sums of `a` from the zero word, at `g`: zero plus the sum over the row `i` of `a[i,g]`. -/
private theorem colSumV_apply (a : FVec Ideal S64x64 .f32) (g : Fin 64) : colSumV a (ix1 g) = Cert.Spec.colSum a g := by
  have h : S64x64.Reduces [0] S64 := ⟨reducesTo_S64x64_S64_d0.1, Nat.one_pos, reducesTo_S64x64_S64_d0.2⟩
  show Ideal.hostReduceAdd reducesTo_S64x64_S64_d0 a (Ideal.ofBits .f32 0x00000000#32) (ix1 g) = _
  rw [Ideal.hostReduceAdd_single reducesTo_S64x64_S64_d0 h, Ideal.ofBits_zero_f32, zero_add]
  show _ = ∑ i : Fin 64, a (ix2 i g)
  refine Finset.sum_congr rfl fun k _ => ?_
  refine congrArg a (funext fun c => Fin.ext ?_)
  match c with
  | ⟨0, _⟩ => rfl
  | ⟨1, _⟩ => rfl

/-- A 64-vector copied to every row of every member, at `(b, n, g)`: its entry `g`. -/
private theorem everyRow_apply (v : FVec Ideal S64 .f32) (b : Fin 32) (n : Fin 1024) (g : Fin 64) :
    everyRow v (ix3 b n g) = v (ix1 g) := by
  refine (broadcastInDim_apply ![0, 1, 2] bcast_S1x1x64_S32x1024x64_0_1_2 _ (ix3 b n g)
    (ix3 (0 : Fin 1) (0 : Fin 1) g) ?_).trans ?_
  · intro c
    match c with
    | ⟨0, _⟩ => rfl
    | ⟨1, _⟩ => rfl
    | ⟨2, _⟩ =>
      exact (if_neg (show ¬ (64 : ℕ) = 1 by decide)).symm
  · refine broadcastInDim_apply ![2] bcast_S64_S1x1x64_2 v (ix3 (0 : Fin 1) (0 : Fin 1) g) (ix1 g) ?_
    intro c
    match c with
    | ⟨0, _⟩ =>
      exact (if_neg (show ¬ (64 : ℕ) = 1 by decide)).symm

/-- Two numbers below 1024 have equal 32-bit words exactly when they are equal. -/
private theorem word_eq_iff (i k : Fin 1024) : (BitVec.ofNat 32 i.val = BitVec.ofNat 32 k.val) ↔ i = k := by
  have hi : i.val < 1024 := i.isLt
  have hk : k.val < 1024 := k.isLt
  constructor
  · intro h
    have h' := congrArg BitVec.toNat h
    simp only [BitVec.toNat_ofNat] at h'
    refine Fin.ext ?_
    omega
  · rintro rfl; rfl

/-- In the extended reals one minus the real one is zero. -/
private theorem one_sub_coe_one : (1 : EReal) - ((1 : ℝ) : EReal) = 0 := by
  rw [← EReal.coe_one, ← EReal.coe_sub, sub_self, EReal.coe_zero]

/-- In the extended reals one minus the real zero is one. -/
private theorem one_sub_coe_zero : (1 : EReal) - ((0 : ℝ) : EReal) = 1 := by
  rw [← EReal.coe_one, ← EReal.coe_sub, sub_zero]

/-- One minus the indicator of the diagonal, at `(i, k)`: zero on the diagonal, one off it. -/
private theorem offDiagV_apply (i k : Fin 1024) : offDiagV (F := Ideal) (ix2 i k) = Cert.Spec.offDiag i k := by
  show Ideal.ofBits .f32 0x3F800000#32
      - (((IntOp.cmpi .eq (BitVec.ofNat 32 i.val + 0#32) (BitVec.ofNat 32 k.val)).toNat : ℝ) : EReal) = _
  rw [show Ideal.ofBits .f32 0x3F800000#32 = 1 from IdealRules.sign_bit.ideal_onePat .f32, BitVec.add_zero]
  unfold Cert.Spec.offDiag
  by_cases h : i = k
  · subst h
    rw [if_pos rfl]
    show (1 : EReal) - (((BitVec.ofBool (BitVec.ofNat 32 i.val == BitVec.ofNat 32 i.val)).toNat : ℝ) : EReal) = 0
    rw [beq_self_eq_true]
    show (1 : EReal) - (((1 : ℕ) : ℝ) : EReal) = 0
    rw [Nat.cast_one]
    exact one_sub_coe_one
  · rw [if_neg h]
    show (1 : EReal) - (((BitVec.ofBool (BitVec.ofNat 32 i.val == BitVec.ofNat 32 k.val)).toNat : ℝ) : EReal) = 1
    have hne : ¬ BitVec.ofNat 32 i.val = BitVec.ofNat 32 k.val := fun e => h ((word_eq_iff i k).mp e)
    rw [beq_eq_false_iff_ne.mpr hne]
    show (1 : EReal) - (((0 : ℕ) : ℝ) : EReal) = 1
    rw [Nat.cast_zero]
    exact one_sub_coe_zero

/-- The outlined rectifier at an index is `leaky` of the element. -/
private theorem leakyV_apply (z : FVec Ideal S32x1024x1024 .f32) (j : S32x1024x1024.Idx) :
    leakyV z j = Cert.Spec.leaky (z j) := by
  show Scalar.select (Ideal.cmp .oge (z j) (Ideal.ofBits .f32 0x00000000#32)) (z j)
      (Ideal.ofBits .f32 0x3C23D70A#32 * z j) = _
  rw [Ideal.ofBits_zero_f32]
  rfl

/-- The bilinear scores at `(b, i, k)`: the sum over `g` of the projections' products weighted by the column sums. -/
private theorem scoreV_apply (X : FVec Ideal S32x1024x64 .f32) (attW a : FVec Ideal S64x64 .f32) (b : Fin 32)
    (i k : Fin 1024) : scoreV X attW a (ix3 b i k) = Cert.Spec.score (Cert.Spec.member X b) attW a i k := by
  refine (Cert.LibDot.dotGeneral_stack_transposed_apply dot_S32x1024x64_S32x1024x64_S32x1024x1024_2_2_1_1_0_0_wf none
    (mulf (projV X attW) (everyRow (colSumV a))) (projV X attW) b i k).trans ?_
  show _ = ∑ g : Fin 64, (Cert.Spec.proj (Cert.Spec.member X b) attW i g * Cert.Spec.colSum a g)
    * Cert.Spec.proj (Cert.Spec.member X b) attW k g
  refine Finset.sum_congr rfl fun g _ => ?_
  rw [mulf_apply, projV_apply, projV_apply, everyRow_apply, colSumV_apply]

/-- A 1024 × 1024 array copied to every member, at `(b, i, k)`: its entry `(i, k)`. -/
private theorem everyMember_apply {α : Type} (x : S1024x1024.Idx → α) (b : Fin 32) (i k : Fin 1024) :
    broadcastInDim S32x1024x1024 ![0, 1, 2] bcast_S1x1024x1024_S32x1024x1024_0_1_2
      (broadcastInDim S1x1024x1024 ![1, 2] bcast_S1024x1024_S1x1024x1024_1_2 x) (ix3 b i k) = x (ix2 i k) := by
  refine (broadcastInDim_apply ![0, 1, 2] bcast_S1x1024x1024_S32x1024x1024_0_1_2 _ (ix3 b i k)
    (ix3 (0 : Fin 1) i k) ?_).trans ?_
  · intro c
    match c with
    | ⟨0, _⟩ => rfl
    | ⟨1, _⟩ =>
      exact (if_neg (show ¬ (1024 : ℕ) = 1 by decide)).symm
    | ⟨2, _⟩ =>
      exact (if_neg (show ¬ (1024 : ℕ) = 1 by decide)).symm
  · refine broadcastInDim_apply ![1, 2] bcast_S1024x1024_S1x1024x1024_1_2 x (ix3 (0 : Fin 1) i k) (ix2 i k) ?_
    intro c
    match c with
    | ⟨0, _⟩ =>
      exact (if_neg (show ¬ (1024 : ℕ) = 1 by decide)).symm
    | ⟨1, _⟩ =>
      exact (if_neg (show ¬ (1024 : ℕ) = 1 by decide)).symm

/-- The masked scores at `(b, i, k)`: the score times the off-diagonal mask at `(i, k)`. -/
private theorem maskedV_apply (X : FVec Ideal S32x1024x64 .f32) (attW a : FVec Ideal S64x64 .f32) (b : Fin 32)
    (i k : Fin 1024) :
    maskedV X attW a (ix3 b i k) = Cert.Spec.score (Cert.Spec.member X b) attW a i k * Cert.Spec.offDiag i k := by
  unfold maskedV
  rw [mulf_apply, scoreV_apply]
  refine congrArg (_ * ·) ?_
  exact (everyMember_apply (offDiagV (F := Ideal)) b i k).trans (offDiagV_apply i k)

/-- The reference's result, at the ideal values, is `Spec.G` of its arguments (`W` and `att_W` in @main's order on the
    left, in the specification's on the right). -/
theorem refTerm_eq (X : FVec Ideal S32x1024x64 .f32) (W attW a : FVec Ideal S64x64 .f32) (bias : FVec Ideal S64 .f32)
    (selfW : FVec Ideal S64x64 .f32) :
    refTerm (F := Ideal) X W attW a bias selfW = Cert.Spec.G X attW W a bias selfW := by
  funext j
  obtain ⟨b, n, g, rfl⟩ : ∃ (b : Fin 32) (n : Fin 1024) (g : Fin 64), j = ix3 b n g := ⟨j 0, j 1, j 2, eq_ix3 j⟩
  rw [Cert.Spec.G_apply]
  unfold refTerm Cert.Spec.out
  rw [addf_apply, addf_apply, everyRow_apply, projV_apply]
  refine congrArg (· + _) (congrArg (· + _) ?_)
  refine (StackMember.dotGeneral_stack_apply dot_S32x1024x1024_S32x1024x64_S32x1024x64_2_1_1_2_0_0_wf none
    (leakyV (maskedV X attW a)) (projV X W) b n g).trans ?_
  refine Finset.sum_congr rfl fun m _ => ?_
  rw [leakyV_apply, maskedV_apply, projV_apply]
  rfl

end Cert.ReferenceIdeal.RefValue

end
-- ==== Proof.lean ====
/-
  A graph-attention layer with bilinear scores, one batch member per grid point, against its jnp reference, over
  the extended reals.

  For a member `x` of the stack `X` both programs compute, at row `n` and column `g`,
      (Σ_m att(n, m) · (x W)[m, g] + bias[g]) + (x self_W)[n, g],
  where att(i, k) is the leaky rectifier (slope the f32 nearest 0.01, the same word on both sides) of the score
  Σ_g ((x att_W)[i, g] · colsum(a)[g]) · (x att_W)[k, g] with the diagonal zeroed (`Proof/Spec.lean`).
  No algebraic law is needed to join the two sides: at the ideal values each matrix product, on the kernel's matrix
  unit and in the host's `dot_general`, is the plain sum over the contracted coordinate in the same order of factors,
  the kernel's lane reduction and the host's reduce from zero are the same column sum, the kernel's select on
  "row = column" and the host's one minus the diagonal's indicator are the same mask, and the rectifier is spelt the
  same way. So the precondition is not opened.

  The kernel side: the body's value at an index (`Proof/KernelPayload.lean`), then from the 32 blocks to the result
  array over the generated blockwise value leg (`Proof/KernelValue.lean`). The reference side: its run as a straight
  line of host operations (`Proof/RefRun.lean`, over the term of `Proof/RefTerm.lean`) and that term read at an index
  (`Proof/RefValue.lean`). The matrix products at an index are `Proof/LibDot.lean`.
-/
import proofs.«121230_j22273700397226_1_alg».proof.Defs
import proofs.«121230_j22273700397226_1_alg».proof.Proof.Gen.Kernel
import proofs.«121230_j22273700397226_1_alg».proof.Proof.Gen.Kernel.Frame
import proofs.«121230_j22273700397226_1_alg».proof.Proof.Gen.KernelIdeal
import proofs.«121230_j22273700397226_1_alg».proof.Proof.Gen.KernelIdeal.Frame
import proofs.«121230_j22273700397226_1_alg».proof.Proof.Gen.ReferenceIdeal
import proofs.«121230_j22273700397226_1_alg».proof.Proof.Gen.Pre_finite_inputs
import proofs.«121230_j22273700397226_1_alg».proof.Proof.KernelValue
import proofs.«121230_j22273700397226_1_alg».proof.Proof.RefRun
import proofs.«121230_j22273700397226_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- Both runs end with the result array at the specification of the arguments, which agree. -/
theorem algebraic : Cert.algebraic_KernelIdeal_ReferenceIdeal := by
  intro m ρ m' ρ' _ hagree
  refine ⟨fun c => Cert.KernelIdeal.ArrayValue.spec m c, Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq, (hagree c).1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
